-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S1x64 : Shape := ⟨2, ![1, 64]⟩
abbrev S1 : Shape := ⟨1, ![1]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x64 .f32) (main_arg8 : FVec F S1 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S1 .f32) (main_arg5 : FVec F S1x64 .f32) (main_arg6 : FVec F S1 .f32) (main_arg7 : FVec F S1x64 .f32) (main_arg8 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S64x8192 .f32) (main_arg1 : FVec F S64x8192 .f32) (main_arg2 : FVec F S64x8192 .f32) (main_arg3 : FVec F S1x64 .f32) (main_arg4 : FVec F S1 .f32) (main_arg5 : FVec F S1x64 .f32) (main_arg6 : FVec F S1 .f32) (main_arg7 : FVec F S1x64 .f32) (main_arg8 : FVec F S1 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S64x8192 .f32 := Host.absf main_arg2
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_v13 main_v16
-- ==== Kernel.lean ====
abbrev S64x8192 : Shape := ⟨2, ![64, 8192]⟩
abbrev S1x64 : Shape := ⟨2, ![1, 64]⟩
abbrev S1 : Shape := ⟨1, ![1]⟩
abbrev S8192x64 : Shape := ⟨2, ![8192, 64]⟩
abbrev S64x1 : Shape := ⟨2, ![64, 1]⟩
abbrev S8192x1 : Shape := ⟨2, ![8192, 1]⟩
abbrev S1x1 : Shape := ⟨2, ![1, 1]⟩
abbrev S1x8192 : Shape := ⟨2, ![1, 8192]⟩
abbrev S8192x8192 : Shape := ⟨2, ![8192, 8192]⟩
abbrev S256x1 : Shape := ⟨2, ![256, 1]⟩
abbrev S256x8192 : Shape := ⟨2, ![256, 8192]⟩
abbrev S256 : Shape := ⟨1, ![256]⟩

abbrev nBuf : Space → Nat
  | .hbm => 31
  | .vmem => 8
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S64x8192, .f32⟩
  | .hbm, ⟨3, _⟩ => ⟨S1x64, .f32⟩
  | .hbm, ⟨4, _⟩ => ⟨S1, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1, .f32⟩
  | .hbm, ⟨9, _⟩ => ⟨S8192x64, .f32⟩
  | .hbm, ⟨10, _⟩ => ⟨S64x1, .f32⟩
  | .hbm, ⟨11, _⟩ => ⟨S8192x1, .f32⟩
  | .hbm, ⟨12, _⟩ => ⟨S1x1, .f32⟩
  | .hbm, ⟨13, _⟩ => ⟨S8192x1, .f32⟩
  | .hbm, ⟨14, _⟩ => ⟨S8192x1, .f32⟩
  | .hbm, ⟨15, _⟩ => ⟨S8192x64, .f32⟩
  | .hbm, ⟨16, _⟩ => ⟨S64x1, .f32⟩
  | .hbm, ⟨17, _⟩ => ⟨S8192x1, .f32⟩
  | .hbm, ⟨18, _⟩ => ⟨S1x1, .f32⟩
  | .hbm, ⟨19, _⟩ => ⟨S8192x1, .f32⟩
  | .hbm, ⟨20, _⟩ => ⟨S8192x1, .f32⟩
  | .hbm, ⟨21, _⟩ => ⟨S8192x64, .f32⟩
  | .hbm, ⟨22, _⟩ => ⟨S64x1, .f32⟩
  | .hbm, ⟨23, _⟩ => ⟨S8192x1, .f32⟩
  | .hbm, ⟨24, _⟩ => ⟨S1x1, .f32⟩
  | .hbm, ⟨25, _⟩ => ⟨S8192x1, .f32⟩
  | .hbm, ⟨26, _⟩ => ⟨S8192x1, .f32⟩
  | .hbm, ⟨27, _⟩ => ⟨S1x8192, .f32⟩
  | .hbm, ⟨28, _⟩ => ⟨S1x8192, .f32⟩
  | .hbm, ⟨29, _⟩ => ⟨S8192x8192, .f32⟩
  | .hbm, ⟨30, _⟩ => ⟨S8192x1, .f32⟩
  | .local _ .vmem, ⟨0, _⟩ => ⟨S256x1, .f32⟩
  | .local _ .vmem, ⟨1, _⟩ => ⟨S256x1, .f32⟩
  | .local _ .vmem, ⟨2, _⟩ => ⟨S1x8192, .f32⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | .local _ .vmem, ⟨6, _⟩ => ⟨S256x1, .f32⟩
  | .local _ .vmem, ⟨7, _⟩ => ⟨S256x1, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x8192_S8192x64_1_0 : S64x8192.Transposes [1, 0] S8192x64
  transposes_S1x64_S64x1_1_0 : S1x64.Transposes [1, 0] S64x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S1x8192 : S8192x1.ShapeCasts S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S1x8192_S1 : S1x8192.Reduces [1] S1
  shapeCasts_S1_S1x1 : S1.ShapeCasts S1x1
  shapeCasts_S1x1_S1x1 : S1x1.ShapeCasts S1x1
  broadcasts_S1x1_S256x1 : S1x1.Broadcasts S256x1
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  inb_S256x8192_S256x8192_0_0 : ∀ a, (![0, 0] : Fin 2 → Nat) a + S256x8192.size a ≤ S256x8192.size a
  h_S256x8192 : 0 < S256x8192.numel
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .f32 = 32 ∨ (Rect.block (s := S8192x8192) S256x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .f32 = 32 ∨ (Rect.block (s := S8192x1) S256x1.size (cc0_transform_4 i) (hinb0_4 i)).WholeWords (EltTy.packing .f32)

variable [Facts₀]

def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_v5) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S256x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x8192 : Shape := ⟨2, ![64, 8192]⟩
abbrev S1x64 : Shape := ⟨2, ![1, 64]⟩
abbrev S1 : Shape := ⟨1, ![1]⟩
abbrev S8192x64 : Shape := ⟨2, ![8192, 64]⟩
abbrev S64x1 : Shape := ⟨2, ![64, 1]⟩
abbrev S8192x1 : Shape := ⟨2, ![8192, 1]⟩
abbrev S1x1 : Shape := ⟨2, ![1, 1]⟩
abbrev S_ : Shape := ⟨0, ![]⟩
abbrev S1x8192 : Shape := ⟨2, ![1, 8192]⟩
abbrev S8192x8192 : Shape := ⟨2, ![8192, 8192]⟩
abbrev S8192 : Shape := ⟨1, ![8192]⟩

abbrev nBuf : Space → Nat
  | .hbm => 50
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S64x8192, .f32⟩
  | .hbm, ⟨3, _⟩ => ⟨S1x64, .f32⟩
  | .hbm, ⟨4, _⟩ => ⟨S1, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1, .f32⟩
  | .hbm, ⟨9, _⟩ => ⟨S8192x64, .f32⟩
  | .hbm, ⟨10, _⟩ => ⟨S64x1, .f32⟩
  | .hbm, ⟨11, _⟩ => ⟨S8192x1, .f32⟩
  | .hbm, ⟨12, _⟩ => ⟨S1x1, .f32⟩
  | .hbm, ⟨13, _⟩ => ⟨S8192x1, .f32⟩
  | .hbm, ⟨14, _⟩ => ⟨S8192x1, .f32⟩
  | .hbm, ⟨15, _⟩ => ⟨S8192x64, .f32⟩
  | .hbm, ⟨16, _⟩ => ⟨S64x1, .f32⟩
  | .hbm, ⟨17, _⟩ => ⟨S8192x1, .f32⟩
  | .hbm, ⟨18, _⟩ => ⟨S1x1, .f32⟩
  | .hbm, ⟨19, _⟩ => ⟨S8192x1, .f32⟩
  | .hbm, ⟨20, _⟩ => ⟨S8192x1, .f32⟩
  | .hbm, ⟨21, _⟩ => ⟨S8192x64, .f32⟩
  | .hbm, ⟨22, _⟩ => ⟨S64x1, .f32⟩
  | .hbm, ⟨23, _⟩ => ⟨S8192x1, .f32⟩
  | .hbm, ⟨24, _⟩ => ⟨S1x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x1, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  transposes_S64x8192_S8192x64_1_0 : S64x8192.Transposes [1, 0] S8192x64
  transposes_S1x64_S64x1_1_0 : S1x64.Transposes [1, 0] S64x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S64x1_S8192x1_1_0_0_1_n_n_wf : DotDims.WF S8192x64 S64x1 S8192x1 [1] [0] [0] [1] [] []
  dot_S8192x1_S1x8192_S8192x8192_1_0_0_1_n_n_wf : DotDims.WF S8192x1 S1x8192 S8192x8192 [1] [0] [0] [1] [] []
  dot_S8192x8192_S8192x1_S8192x1_1_0_0_1_n_n_wf : DotDims.WF S8192x8192 S8192x1 S8192x1 [1] [0] [0] [1] [] []

variable [Facts₀]

def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.Spec.lean ====
/-
  Softmax attention over a rank-one score matrix, as one function of three columns.

  Both programs first project their inputs to three columns of 8192 extended reals: the queries `q`, the keys `k`
  and the values `w`. The score of row `i` against column `j` is the product `q i * k j` scaled by `1/8`
  (the f32 word `0x3E000000`); a row of the attention matrix is the softmax of its row of scores, taken the
  numerically careful way: subtract the row's maximum, exponentiate, divide by the row's sum; and the output is
  the attention matrix applied to the value column. This module states that function once, entry by entry; the
  other modules show that each program's result arrays are this function of its three columns.
-/
import Idealize.ShloMosaic.PureOps.Ideal
import Idealize.ShloMosaic.PureOps.Ideal.Laws
import Idealize.ShloMosaic.Lib.ValueIdx

noncomputable section

namespace Cert.Attn

open Idealize.ShloMosaic

/-- The scale `1/8`, kept as the f32 word that denotes it. -/
abbrev sc : EReal := Ideal.ofBits .f32 0x3E000000#32

variable (q k w : Fin 8192 → EReal)

/-- The score of query row `i` against key column `j`. -/
def score (i j : Fin 8192) : EReal := (q i * k j) * sc

/-- The largest score of row `i`: the fold of `max` from `-∞` over the row. -/
def rowMax (i : Fin 8192) : EReal := (Finset.univ : Finset (Fin 8192)).fold max ⊥ (fun j => score q k i j)

/-- The shifted exponential of one score. -/
def num (i j : Fin 8192) : EReal := Ideal.exp (score q k i j - rowMax q k i)

/-- The row's sum of shifted exponentials. -/
def den (i : Fin 8192) : EReal := ∑ j : Fin 8192, num q k i j

/-- One entry of the attention matrix. -/
def attn (i j : Fin 8192) : EReal := Ideal.div (num q k i j) (den q k i)

/-- One entry of the output column: row `i` of the attention matrix against the value column. -/
def out (i : Fin 8192) : EReal := ∑ j : Fin 8192, attn q k i j * w j

/-- The attention matrix as an array over the index type of an 8192 × 8192 buffer. -/
def attnArr : (⟨2, ![8192, 8192]⟩ : Shape).Idx → EReal := fun y => attn q k (y 0) (y 1)

/-- The output column as an array over the index type of an 8192 × 1 buffer. -/
def outArr : (⟨2, ![8192, 1]⟩ : Shape).Idx → EReal := fun y => out q k w (y 0)

end Cert.Attn

end
-- ==== Proof.RowMax.lean ====
/-
  The arithmetic the two programs do not share: the scale, and the maximum of a row of scores.

  The reference computes the scale as `1 / sqrt 64` and takes the maximum of each row of scores by a fold; the
  kernel uses the word for `1/8` and a closed form of the row maximum: since the scores of row `i` are the keys
  multiplied by the one number `q i / 8`, their maximum is that number times the largest key when `q i ≥ 0`, and
  times the smallest key otherwise. Multiplication by a nonnegative extended real is monotone and by a nonpositive
  one antitone, so the closed form holds for every extended real, the infinities included.
-/
import proofs.«405289_j79963701117362_3_alg».proof.Proof.Spec

noncomputable section

namespace Cert.Attn

open Idealize.ShloMosaic

/-- The f32 word of `-∞`. -/
theorem ofBits_negInf : Ideal.ofBits .f32 0xFF800000#32 = (⊥ : EReal) := by
  simp [Ideal.ofBits, Ideal.ieee]

/-- The f32 word of `+∞`. -/
theorem ofBits_posInf : Ideal.ofBits .f32 0x7F800000#32 = (⊤ : EReal) := by
  simp [Ideal.ofBits, Ideal.ieee]

/-- The f32 word `0x3F800000` is the real one. -/
theorem ofBits_one : Ideal.ofBits .f32 0x3F800000#32 = ((1 : ℝ) : EReal) := by
  simp [Ideal.ofBits, Ideal.ieee, -EReal.coe_mul]; norm_num

/-- The f32 word `0x42800000` is the real sixty-four. -/
theorem ofBits_sixtyFour : Ideal.ofBits .f32 0x42800000#32 = ((64 : ℝ) : EReal) := by
  simp [Ideal.ofBits, Ideal.ieee, -EReal.coe_mul]; norm_num

/-- The scale's word `0x3E000000` is the real one eighth. -/
theorem sc_eq : sc = ((1 / 8 : ℝ) : EReal) := by
  simp [sc, Ideal.ofBits, Ideal.ieee, -EReal.coe_mul]; norm_num

/-- The scale is not negative. -/
theorem sc_nonneg : (0 : EReal) ≤ sc := by
  rw [sc_eq]; exact EReal.coe_nonneg.2 (by norm_num)

/-- The square root of sixty-four is eight. -/
theorem sqrt_sixtyFour : Real.sqrt 64 = 8 := by
  rw [show (64 : ℝ) = 8 ^ 2 by norm_num]
  exact Real.sqrt_sq (by norm_num)

/-- The reference's scale `1 / sqrt 64` is the kernel's `1/8`. -/
theorem scale_eq :
    Ideal.div (Ideal.ofBits .f32 0x3F800000#32) (Ideal.sqrt (Ideal.ofBits .f32 0x42800000#32)) = sc := by
  rw [ofBits_one, ofBits_sixtyFour, Ideal.sqrt_coe, if_neg (by norm_num), sqrt_sixtyFour,
    Ideal.div_coe (by norm_num : (8 : ℝ) ≠ 0), sc_eq, ← EReal.coe_mul, one_mul]

/-- A monotone map carries the `max`-fold from `⊥` over a nonempty set to the `max`-fold from `⊥` of the images:
    the fold is attained at a member (or is `⊥`, below every member), so the starting value plays no part. -/
theorem map_fold_max_of_monotone {ι : Type*} {s : Finset ι} (hs : s.Nonempty) {g : EReal → EReal}
    (hg : Monotone g) (f : ι → EReal) :
    g (s.fold max ⊥ f) = s.fold max ⊥ (fun j => g (f j)) := by
  apply le_antisymm
  · have h : ∃ x ∈ s, s.fold max ⊥ f ≤ f x := by
      rcases (Finset.le_fold_max (s.fold max ⊥ f)).1 le_rfl with h | h
      · obtain ⟨x, hx⟩ := hs
        exact ⟨x, hx, h.trans bot_le⟩
      · exact h
    obtain ⟨x, hx, hMx⟩ := h
    exact (hg hMx).trans ((Finset.le_fold_max _).2 (Or.inr ⟨x, hx, le_rfl⟩))
  · exact (Finset.fold_max_le _).2
      ⟨bot_le, fun j hj => hg ((Finset.le_fold_max _).2 (Or.inr ⟨j, hj, le_rfl⟩))⟩

/-- An antitone map carries the `min`-fold from `⊤` over a nonempty set to the `max`-fold from `⊥` of the images. -/
theorem map_fold_min_of_antitone {ι : Type*} {s : Finset ι} (hs : s.Nonempty) {g : EReal → EReal}
    (hg : Antitone g) (f : ι → EReal) :
    g (s.fold min ⊤ f) = s.fold max ⊥ (fun j => g (f j)) := by
  apply le_antisymm
  · have h : ∃ x ∈ s, f x ≤ s.fold min ⊤ f := by
      rcases (Finset.fold_min_le (s.fold min ⊤ f)).1 le_rfl with h | h
      · obtain ⟨x, hx⟩ := hs
        exact ⟨x, hx, le_top.trans h⟩
      · exact h
    obtain ⟨x, hx, hxm⟩ := h
    exact (hg hxm).trans ((Finset.le_fold_max _).2 (Or.inr ⟨x, hx, le_rfl⟩))
  · exact (Finset.fold_max_le _).2
      ⟨bot_le, fun j hj => hg ((Finset.fold_min_le _).2 (Or.inr ⟨j, hj, le_rfl⟩))⟩

/-- Multiplication by a nonnegative extended real is monotone. -/
theorem mul_left_monotone {c : EReal} (hc : 0 ≤ c) : Monotone (fun x : EReal => c * x) :=
  fun _ _ h => mul_le_mul_of_nonneg_left h hc

/-- Multiplication by a nonpositive extended real is antitone. -/
theorem mul_left_antitone {c : EReal} (hc : c ≤ 0) : Antitone (fun x : EReal => c * x) := by
  intro x y h
  show c * y ≤ c * x
  rw [mul_comm c y, mul_comm c x]
  exact EReal.mul_le_mul_of_nonpos_right h hc

/-- The kernel's closed form of a row's largest score. -/
theorem rowMax_closed (q k : Fin 8192 → EReal) (i : Fin 8192) :
    (sc * q i) * (Scalar.select (Ideal.cmp .oge (q i) (Ideal.ofBits .f32 0x00000000#32))
        ((Finset.univ : Finset (Fin 8192)).fold max (Ideal.ofBits .f32 0xFF800000#32) k)
        ((Finset.univ : Finset (Fin 8192)).fold min (Ideal.ofBits .f32 0x7F800000#32) k))
      = rowMax q k i := by
  have hscore : (fun j => score q k i j) = fun j => (sc * q i) * k j := by
    funext j
    rw [score, mul_comm (q i * k j) sc, mul_assoc]
  have hne : (Finset.univ : Finset (Fin 8192)).Nonempty := Finset.univ_nonempty
  rw [rowMax, hscore, ofBits_negInf, ofBits_posInf, Ideal.ofBits_zero_f32]
  by_cases h : 0 ≤ q i
  · have hc : Ideal.cmp .oge (q i) 0 = 1#1 := by simp [Ideal.cmp, h]
    rw [hc, ValueIdx.select_one]
    exact map_fold_max_of_monotone hne (mul_left_monotone (mul_nonneg sc_nonneg h)) k
  · have hc : Ideal.cmp .oge (q i) 0 = 0#1 := by simp [Ideal.cmp, h]
    rw [hc, ValueIdx.select_zero]
    have hq : q i ≤ 0 := le_of_lt (not_le.1 h)
    exact map_fold_min_of_antitone hne
      (mul_left_antitone (EReal.mul_nonpos_iff.2 (Or.inl ⟨sc_nonneg, hq⟩))) k

end Cert.Attn

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.KernelPay.lean ====
/-
  What one grid point of the kernel computes, entry by entry.

  At a grid point the kernel body holds a block of 256 query entries `P0` (a column), the whole key row `P1` and
  the whole value row `P2`. Its first stored value is the 256 × 8192 block of attention entries and its second the
  256 output entries. Read at an entry, the body's layout steps (casts that change nothing, a column or a row
  broadcast over the block, a reduced vector cast back to a column) only move indices, its two reductions of the key
  row are the folds of `max` from `-∞` and of `min` from `+∞` over the keys, and its row sums are sums over the
  8192 columns. What is left is, for the row whose query entry is `P0 (p, 0)`, the specification's attention entry
  with the row maximum in the kernel's closed form, which the law of the row maximum turns into the fold; and the
  output entry is the sum over the columns of attention entries times values.
-/
import proofs.«405289_j79963701117362_3_alg».proof.Proof.Gen.KernelIdeal.Skeleton
import proofs.«405289_j79963701117362_3_alg».proof.Proof.Spec
import proofs.«405289_j79963701117362_3_alg».proof.Proof.RowMax
import proofs.«405289_j79963701117362_3_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.KernelIdeal.Facts₀ Cert.KernelIdeal.Facts
open Idealize.ShloMosaic Idealize.ShloMosaic.ValueIdx Cert.Lib.Keepdims

/-- The key row has one row: a reduced index with column `k` put back is `(0, k)`. -/
theorem lift_row (h : S1x8192.Reduces [1] S1) (j : S1.Idx) (k : Fin 8192) : h.lift j k = ix2 (0 : Fin 1) k :=
  funext fun a => Fin.ext (match a with | ⟨0, _⟩ => (Nat.lt_one_iff.mp (h.lift j k 0).isLt : (h.lift j k 0).val = 0) | ⟨1, _⟩ => rfl)

/-- In a block, row `p` of the reduced vector with column `k` put back is `(p, k)`. -/
theorem lift_blk (h : S256x8192.Reduces [1] S256) (p : Fin 256) (k : Fin 8192) : h.lift (ix1 p) k = ix2 p k :=
  funext fun a => Fin.ext (match a with | ⟨0, _⟩ => rfl | ⟨1, _⟩ => rfl)

/-- The largest key: the row's `max`-reduction is the fold of `max` from `-∞` over the 8192 keys. -/
theorem maxred_eq (P1 : FVec Ideal S1x8192 .f32) (h : S1x8192.Reduces [1] S1) (hφ : FTy.f32 = FTy.f32 ∨ FTy.f32 = FTy.bf16)
    (hacc : (0xFF800000#32 : BitVec 32) = 0xFF800000#32) (j : S1.Idx) :
    multiReduction .maximumf [1] S1 P1 0xFF800000#32 h hφ hacc j
      = (Finset.univ : Finset (Fin 8192)).fold max (Ideal.ofBits .f32 0xFF800000#32) (fun k => P1 (ix2 (0 : Fin 1) k)) := by
  refine (Ideal.multiReduction_maximumf_single P1 _ h hφ hacc j).trans ?_
  exact congrArg (fun f => (Finset.univ : Finset (Fin 8192)).fold max (Ideal.ofBits .f32 0xFF800000#32) f)
    (funext fun k => congrArg P1 (lift_row h j k))

/-- The smallest key: the row's `min`-reduction is the fold of `min` from `+∞` over the 8192 keys. -/
theorem minred_eq (P1 : FVec Ideal S1x8192 .f32) (h : S1x8192.Reduces [1] S1) (hφ : FTy.f32 = FTy.f32 ∨ FTy.f32 = FTy.bf16)
    (hacc : (0x7F800000#32 : BitVec 32) = 0x7F800000#32) (j : S1.Idx) :
    multiReduction .minimumf [1] S1 P1 0x7F800000#32 h hφ hacc j
      = (Finset.univ : Finset (Fin 8192)).fold min (Ideal.ofBits .f32 0x7F800000#32) (fun k => P1 (ix2 (0 : Fin 1) k)) := by
  refine (multiReduction_minimumf_eq_fold P1 _ h hφ hacc j).trans ?_
  refine (h.fold_filter_drop_single _ _ P1 j).trans ?_
  exact congrArg (fun f => (Finset.univ : Finset (Fin 8192)).fold min (Ideal.ofBits .f32 0x7F800000#32) f)
    (funext fun k => congrArg P1 (lift_row h j k))

/-- A row sum of a block: the sum over the 8192 columns of row `p`. -/
theorem sumred_eq (X : FVec Ideal S256x8192 .f32) (h : S256x8192.Reduces [1] S256) (hφ : FTy.f32 = FTy.f32 ∨ FTy.f32 = FTy.bf16)
    (hacc : (0x00000000#32 : BitVec 32) = 0x00000000#32) (p : Fin 256) :
    multiReduction .add [1] S256 X 0x00000000#32 h hφ hacc (ix1 p) = ∑ k : Fin 8192, X (ix2 p k) := by
  refine (Ideal.multiReduction_add_single X _ h hφ hacc (ix1 p)).trans ?_
  exact Finset.sum_congr rfl fun k _ => congrArg X (lift_blk h p k)

/-- The coordinates of an index built from coordinates, and the exponential of a vector read at an index. -/
theorem ix2_zero {a b : ℕ} (x : Fin a) (y : Fin b) : (ix2 x y) 0 = x := rfl
theorem ix2_one {a b : ℕ} (x : Fin a) (y : Fin b) : (ix2 x y) 1 = y := rfl
theorem exp_apply {s : Shape} {φ : FTy} (a : FVec Ideal s φ) (i : s.Idx) : exp a i = Ideal.exp (a i) := rfl

/-- The attention block at `(p, j)` is the specification's attention entry of the row whose query entry is
    `P0 (p, 0)`, against the keys `P1 (0, ·)`. -/
theorem pay1_apply (P0 : FVec Ideal S256x1 .f32) (P1 : FVec Ideal S1x8192 .f32) (q : Fin 8192 → EReal) (i : Fin 8192)
    (p : Fin 256) (j : Fin 8192) (hq : q i = P0 (ix2 p (0 : Fin 1))) :
    k0_pay1 (F := Ideal) P0 P1 (ix2 p j) = Cert.Attn.attn q (fun k => P1 (ix2 (0 : Fin 1) k)) i j := by
  unfold k0_pay1
  simp only [shapeCast_self, broadcastTo_a1_ab_eq, broadcastTo_1b_ab_eq, broadcastTo_11_a1_eq, shapeCast_a_a1_eq, shapeCast_a_1a_eq]
  simp only [divf_apply, exp_apply, subf_apply, mulf_apply, broadcast_apply, select_apply, cmpf_apply, ix2_zero, ix2_one,
    maxred_eq, minred_eq, sumred_eq]
  simp only [maxred_eq P1 Gen.reduces_S1x8192_S1, minred_eq P1 Gen.reduces_S1x8192_S1, sumred_eq _ Gen.reduces_S256x8192_S256]
  simp only [exp_apply, subf_apply, mulf_apply, broadcast_apply, ix2_zero, ix2_one]
  unfold Cert.Attn.attn Cert.Attn.den Cert.Attn.num Cert.Attn.score
  rw [← Cert.Attn.rowMax_closed, hq]
  rfl

/-- The output block at row `p` is the specification's output entry of that row: the row of attention entries
    against the values `P2 (0, ·)`. -/
theorem pay2_apply (P0 : FVec Ideal S256x1 .f32) (P1 P2 : FVec Ideal S1x8192 .f32) (q : Fin 8192 → EReal) (i : Fin 8192)
    (p : Fin 256) (u : Fin 1) (hq : q i = P0 (ix2 p (0 : Fin 1))) :
    k0_pay2 (F := Ideal) P0 P1 P2 (ix2 p u)
      = Cert.Attn.out q (fun k => P1 (ix2 (0 : Fin 1) k)) (fun k => P2 (ix2 (0 : Fin 1) k)) i := by
  unfold k0_pay2
  simp only [shapeCast_self, broadcastTo_1b_ab_eq, shapeCast_a_a1_eq, ix2_zero, ix2_one,
    sumred_eq _ Gen.reduces_S256x8192_S256, mulf_apply]
  unfold Cert.Attn.out
  exact Finset.sum_congr rfl fun k _ => by rw [pay1_apply P0 P1 q i p k hq]

end Cert.KernelIdeal.KValue

end
-- ==== Proof.KernelArr.lean ====
/-
  From the kernel's grid points to its two result arrays.

  The grid has 32 points. Point `t` fetches rows `256 t … 256 t + 255` of the query column and the whole key and
  value rows, and writes back rows `256 t … 256 t + 255` of the attention matrix and of the output column. What it
  writes back is, entry by entry, the specification's attention entry and output entry of the row's query entry
  against all keys and values, that is, the block of the specification's arrays at that point. The 32 blocks tile
  the 8192 rows (row `r` lies in the block of point `r / 256`), so after the run both arrays are the
  specification's arrays of the three columns the region found.
-/
import proofs.«405289_j79963701117362_3_alg».proof.Proof.ValueP
import proofs.«405289_j79963701117362_3_alg».proof.Proof.KernelPay

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The stores and loads of the body start at the origin of their buffers. -/
theorem hz : (![0, 0] : Fin 2 → Nat) = fun _ => 0 := funext fun a => by fin_cases a <;> rfl

/-- The query column as the region finds it. -/
def qcol (c : Dev nD) : Fin 8192 → EReal := fun i => (V m c main_v5 : S8192x1.Idx → EReal) (ix2 i (0 : Fin 1))
/-- The key row as the region finds it. -/
def krow (c : Dev nD) : Fin 8192 → EReal := fun j => (V m c main_v18 : S1x8192.Idx → EReal) (ix2 (0 : Fin 1) j)
/-- The value row as the region finds it. -/
def wrow (c : Dev nD) : Fin 8192 → EReal := fun j => (V m c main_v19 : S1x8192.Idx → EReal) (ix2 (0 : Fin 1) j)

/-- The printed index maps, decided over the 32 grid points: the query block and both output blocks of point `t` are
    block `t` of their arrays' rows, and the key and value rows are fetched whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the attention matrix is block `t` of the specification's matrix. -/
theorem flushed3_eq (c : Dev nD) (t : Fin cfg0.N) :
    (dats m 0 c).flushed 3 t
      = ((cfg0.win 3).blk t).view.read (Elt Ideal) (Cert.Attn.attnArr (qcol m c) (krow m c)) := by
  rw [Cert.KernelIdeal.ValueP.flushed3]
  unfold out0_3
  rw [View.canon_unit_zero hz]
  simp only [View.ld_unit_zero (S := S256x1) hz, View.ld_unit_zero (S := S1x8192) hz]
  funext y
  obtain ⟨e00, e01, e10, e11, -, -, e30, e31, -, -⟩ := idx_facts t
  have hy0 : (y 0).val < 256 := (y 0).isLt
  have hy1 : (y 1).val < 8192 := (y 1).isLt
  have ht : t.val < 32 := t.isLt
  show k0_pay1 (F := Ideal) (iblk m c 0 t) (iblk m c 1 t) y
      = Cert.Attn.attnArr (qcol m c) (krow m c) (((cfg0.win 3).blk t).view.emb y)
  have hy : y = ix2 (⟨(y 0).val, hy0⟩ : Fin 256) (⟨(y 1).val, hy1⟩ : Fin 8192) :=
    funext fun a => match a with | ⟨0, _⟩ => rfl | ⟨1, _⟩ => rfl
  have hrow : (((cfg0.win 3).blk t).view.emb y (0 : Fin 2)).val = t.val * 256 + (y 0).val := by
    show win0_3.index t (0 : Fin 2) * 256 + 1 * (y 0).val = _
    omega
  have hcol : (((cfg0.win 3).blk t).view.emb y (1 : Fin 2)).val = (y 1).val := by
    show win0_3.index t (1 : Fin 2) * 8192 + 1 * (y 1).val = _
    omega
  refine (congrArg (k0_pay1 (F := Ideal) (iblk m c 0 t) (iblk m c 1 t)) hy).trans ?_
  have hq : qcol m c (((cfg0.win 3).blk t).view.emb y (0 : Fin 2) : Fin 8192)
      = iblk m c 0 t (ix2 (⟨(y 0).val, hy0⟩ : Fin 256) (0 : Fin 1)) := by
    show (V m c main_v5 : S8192x1.Idx → EReal) (ix2 (((cfg0.win 3).blk t).view.emb y (0 : Fin 2) : Fin 8192) (0 : Fin 1))
        = (V m c main_v5 : S8192x1.Idx → EReal) (((cfg0.win 0).blk t).view.emb (ix2 (⟨(y 0).val, hy0⟩ : Fin 256) (0 : Fin 1)))
    refine congrArg _ (funext fun a => Fin.ext ?_)
    match a with
    | ⟨0, _⟩ =>
      show (((cfg0.win 3).blk t).view.emb y (0 : Fin 2)).val = win0_0.index t (0 : Fin 2) * 256 + 1 * (y 0).val
      omega
    | ⟨1, _⟩ =>
      show 0 = win0_0.index t (1 : Fin 2) * 1 + 1 * 0
      omega
  refine (pay1_apply (iblk m c 0 t) (iblk m c 1 t) (qcol m c) _ _ _ hq).trans ?_
  have hk : (fun k : Fin 8192 => iblk m c 1 t (ix2 (0 : Fin 1) k)) = krow m c := funext fun k => by
    show (V m c main_v18 : S1x8192.Idx → EReal) (((cfg0.win 1).blk t).view.emb (ix2 (0 : Fin 1) k))
        = (V m c main_v18 : S1x8192.Idx → EReal) (ix2 (0 : Fin 1) k)
    refine congrArg _ (funext fun a => Fin.ext ?_)
    match a with
    | ⟨0, _⟩ =>
      show win0_1.index t (0 : Fin 2) * 1 + 1 * 0 = 0
      omega
    | ⟨1, _⟩ =>
      show win0_1.index t (1 : Fin 2) * 8192 + 1 * k.val = k.val
      omega
  rw [hk]
  show Cert.Attn.attn (qcol m c) (krow m c) _ ⟨(y 1).val, hy1⟩
      = Cert.Attn.attn (qcol m c) (krow m c) _ (((cfg0.win 3).blk t).view.emb y (1 : Fin 2))
  exact congrArg _ (Fin.ext hcol.symm)

/-- What point `t` writes back to the output column is block `t` of the specification's column. -/
theorem flushed4_eq (c : Dev nD) (t : Fin cfg0.N) :
    (dats m 0 c).flushed 4 t
      = ((cfg0.win 4).blk t).view.read (Elt Ideal) (Cert.Attn.outArr (qcol m c) (krow m c) (wrow m c)) := by
  rw [Cert.KernelIdeal.ValueP.flushed4]
  unfold out0_4
  rw [View.canon_unit_zero hz]
  simp only [View.ld_unit_zero (S := S256x1) hz, View.ld_unit_zero (S := S1x8192) hz]
  funext y
  obtain ⟨e00, e01, e10, e11, e20, e21, -, -, e40, e41⟩ := idx_facts t
  have hy0 : (y 0).val < 256 := (y 0).isLt
  have hy1 : (y 1).val < 1 := (y 1).isLt
  have ht : t.val < 32 := t.isLt
  show k0_pay2 (F := Ideal) (iblk m c 0 t) (iblk m c 1 t) (iblk m c 2 t) y
      = Cert.Attn.outArr (qcol m c) (krow m c) (wrow m c) (((cfg0.win 4).blk t).view.emb y)
  have hy : y = ix2 (⟨(y 0).val, hy0⟩ : Fin 256) (⟨(y 1).val, hy1⟩ : Fin 1) :=
    funext fun a => match a with | ⟨0, _⟩ => rfl | ⟨1, _⟩ => rfl
  have hrow : (((cfg0.win 4).blk t).view.emb y (0 : Fin 2)).val = t.val * 256 + (y 0).val := by
    show win0_4.index t (0 : Fin 2) * 256 + 1 * (y 0).val = _
    omega
  refine (congrArg (k0_pay2 (F := Ideal) (iblk m c 0 t) (iblk m c 1 t) (iblk m c 2 t)) hy).trans ?_
  have hq : qcol m c (((cfg0.win 4).blk t).view.emb y (0 : Fin 2) : Fin 8192)
      = iblk m c 0 t (ix2 (⟨(y 0).val, hy0⟩ : Fin 256) (0 : Fin 1)) := by
    show (V m c main_v5 : S8192x1.Idx → EReal) (ix2 (((cfg0.win 4).blk t).view.emb y (0 : Fin 2) : Fin 8192) (0 : Fin 1))
        = (V m c main_v5 : S8192x1.Idx → EReal) (((cfg0.win 0).blk t).view.emb (ix2 (⟨(y 0).val, hy0⟩ : Fin 256) (0 : Fin 1)))
    refine congrArg _ (funext fun a => Fin.ext ?_)
    match a with
    | ⟨0, _⟩ =>
      show (((cfg0.win 4).blk t).view.emb y (0 : Fin 2)).val = win0_0.index t (0 : Fin 2) * 256 + 1 * (y 0).val
      omega
    | ⟨1, _⟩ =>
      show 0 = win0_0.index t (1 : Fin 2) * 1 + 1 * 0
      omega
  refine (pay2_apply (iblk m c 0 t) (iblk m c 1 t) (iblk m c 2 t) (qcol m c) _ _ _ hq).trans ?_
  have hk : (fun k : Fin 8192 => iblk m c 1 t (ix2 (0 : Fin 1) k)) = krow m c := funext fun k => by
    show (V m c main_v18 : S1x8192.Idx → EReal) (((cfg0.win 1).blk t).view.emb (ix2 (0 : Fin 1) k))
        = (V m c main_v18 : S1x8192.Idx → EReal) (ix2 (0 : Fin 1) k)
    refine congrArg _ (funext fun a => Fin.ext ?_)
    match a with
    | ⟨0, _⟩ =>
      show win0_1.index t (0 : Fin 2) * 1 + 1 * 0 = 0
      omega
    | ⟨1, _⟩ =>
      show win0_1.index t (1 : Fin 2) * 8192 + 1 * k.val = k.val
      omega
  have hw : (fun k : Fin 8192 => iblk m c 2 t (ix2 (0 : Fin 1) k)) = wrow m c := funext fun k => by
    show (V m c main_v19 : S1x8192.Idx → EReal) (((cfg0.win 2).blk t).view.emb (ix2 (0 : Fin 1) k))
        = (V m c main_v19 : S1x8192.Idx → EReal) (ix2 (0 : Fin 1) k)
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 8192 + 1 * k.val = k.val
      omega
  rw [hk, hw]
  rfl

/-- An index of the attention array lies in point `t`'s block iff each coordinate lies in the block's range. -/
theorem mem_blk3 (t : Fin cfg0.N) (i : S8192x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v20_0).slice (win0_3.rect t)).set ↔ _
  rw [View.set_slice_whole, Rect.mem_set_unit]
  exact Iff.rfl

/-- The same for the output column. -/
theorem mem_blk4 (t : Fin cfg0.N) (i : S8192x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v20_1).slice (win0_4.rect t)).set ↔ _
  rw [View.set_slice_whole, Rect.mem_set_unit]
  exact Iff.rfl

/-- Row `r` of either result lies in the block of point `r / 256`: the 32 blocks of 256 rows tile the 8192 rows. -/
theorem cover3 (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  let t : Fin cfg0.N := ⟨(i 0).val / 256, by show (i 0).val / 256 < 32; omega⟩
  obtain ⟨-, -, -, -, -, -, e30, e31, -, -⟩ := idx_facts t
  have e30' : win0_3.index t (0 : Fin 2) = (i 0).val / 256 := e30
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 8192 ≤ (i 1).val ∧ (i 1).val < win0_3.index t (1 : Fin 2) * 8192 + 8192
    omega

/-- The same for the output column. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  let t : Fin cfg0.N := ⟨(i 0).val / 256, by show (i 0).val / 256 < 32; omega⟩
  obtain ⟨-, -, -, -, -, -, -, -, e40, e41⟩ := idx_facts t
  have e40' : win0_4.index t (0 : Fin 2) = (i 0).val / 256 := e40
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 1 ≤ (i 1).val ∧ (i 1).val < win0_4.index t (1 : Fin 2) * 1 + 1
    omega

/-- After the run the attention array is the specification's matrix of the columns the region found. -/
theorem final3 (c : Dev nD) : (dats m 0 c).arrAt 3 cfg0.N = Cert.Attn.attnArr (qcol m c) (krow m c) :=
  (dats m 0 c).arrAt_eq_of_cover 3 (Cert.Attn.attnArr (qcol m c) (krow m c)) (fun t _ => flushed3_eq m c t) cover3

/-- After the run the output array is the specification's column. -/
theorem final4 (c : Dev nD) : (dats m 0 c).arrAt 4 cfg0.N = Cert.Attn.outArr (qcol m c) (krow m c) (wrow m c) :=
  (dats m 0 c).arrAt_eq_of_cover 4 (Cert.Attn.outArr (qcol m c) (krow m c) (wrow m c)) (fun t _ => flushed4_eq m c t) cover4

end Cert.KernelIdeal.KValue

end
-- ==== Proof.RefAttn.lean ====
/-
  The reference program's two results are the specification's functions of three projected columns.

  The reference projects its inputs to a query column, a key column and a value column, each 8192 long. From the
  query and key columns it forms the rank-one score matrix: a matrix product over a contraction of length one, so
  each entry is the single product of a query entry and a key entry, then scaled by 1 / sqrt 64, which is 1/8.
  Each row's largest score is a fold of the maximum from minus infinity; taking the maximum with minus infinity
  once more changes nothing. The shifted scores are exponentiated, each row is summed from zero, each entry is
  divided by its row's sum, and the resulting matrix is applied to the value column by a matrix product over a
  contraction of length 8192. Read entry by entry these are the specification's score, row maximum, numerator,
  denominator, attention entry and output entry.
-/
import proofs.«405289_j79963701117362_3_alg».proof.Proof.Gen.ReferenceIdeal.Read
import proofs.«405289_j79963701117362_3_alg».proof.Proof.Spec
import proofs.«405289_j79963701117362_3_alg».proof.Proof.RowMax
import Idealize.ShloMosaic.PureOps.Reduce
import Idealize.ShloMosaic.PureOps.Ideal.Laws
import Idealize.ShloMosaic.Lib.IdealHost
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## Index equations: the program's index functions at the literal shapes, by coordinates -/

/-- The left operand of the score product is read at row `y 0`, column `0`. -/
theorem lidx21_eq (y : S8192x8192.Idx) : lidx_main_v21 y 0 = ix2 (y 0) 0 := by
  funext a; match a with | ⟨0, _⟩ => rfl | ⟨1, _⟩ => rfl

/-- The right operand of the score product, a transposed column, is read at row `y 1`, column `0`. -/
theorem ridx21_eq (y : S8192x8192.Idx) : idx_main_v20 (ridx_main_v21 y 0) = ix2 (y 1) 0 := by
  funext a; match a with | ⟨0, _⟩ => rfl | ⟨1, _⟩ => rfl

/-! ## The scale -/

/-- The reference's scale, `1 / sqrt 64`, is the specification's. -/
theorem scale_val (i : S_.Idx) : val_main_v19 (F := Ideal) i = Cert.Attn.sc := by
  rw [val_main_v19_apply, val_main_v18_apply, val_main_cst_apply, val_main_cst_0_apply]
  simp only [Ideal.hostDivf_def, Ideal.hostUnary_sqrt_def, Ideal.ofBits_def]
  exact Cert.Attn.scale_eq

/-! ## The scores -/

section
variable (x0 x1 : (⟨S64x8192, .f32⟩ : BufTy).Contents (Elt Ideal))
  (x3 : (⟨S1x64, .f32⟩ : BufTy).Contents (Elt Ideal)) (x4 : (⟨S1, .f32⟩ : BufTy).Contents (Elt Ideal))
  (x5 : (⟨S1x64, .f32⟩ : BufTy).Contents (Elt Ideal)) (x6 : (⟨S1, .f32⟩ : BufTy).Contents (Elt Ideal))

/-- The query column. -/
abbrev qcol : Fin 8192 → EReal := fun i => val_main_v5 (F := Ideal) x0 x3 x4 (ix2 i 0)
/-- The key column. -/
abbrev kcol : Fin 8192 → EReal := fun j => val_main_v11 (F := Ideal) x1 x5 x6 (ix2 j 0)

/-- An entry of the scaled product is the specification's score. -/
theorem score_val (y : S8192x8192.Idx) :
    val_main_v23 (F := Ideal) x0 x1 x3 x4 x5 x6 y
      = Cert.Attn.score (qcol x0 x3 x4) (kcol x1 x5 x6) (y 0) (y 1) := by
  rw [val_main_v23_apply, val_main_v21_apply, val_main_v22_apply, scale_val, Fin.sum_univ_one,
    val_main_v20_apply, lidx21_eq, ridx21_eq]
  rfl

/-! ## The row maximum -/

/-- The shapes of the row reductions: an 8192 × 8192 array reduced along its second axis. -/
theorem reduces_rows : S8192x8192.Reduces [1] S8192 := by decide

/-- The source index over row `j` with coordinate `k` on the reduced axis is `(j 0, k)`. -/
theorem lift_rows (j : S8192.Idx) (k : Fin 8192) : reduces_rows.lift j k = ix2 (n0 := 8192) (n1 := 8192) (j 0) k := by
  funext a; apply Fin.ext; match a with | ⟨0, _⟩ => rfl | ⟨1, _⟩ => rfl

/-- The fold of the maximum from minus infinity over a row of the scaled product is the specification's row maximum. -/
theorem fold_val (j : S8192.Idx) :
    val_main_v24 (F := Ideal) x0 x1 x3 x4 x5 x6 j = Cert.Attn.rowMax (qcol x0 x3 x4) (kcol x1 x5 x6) (j 0) := by
  unfold val_main_v24
  rw [Host.reduce_eq_fold_single (FloatOps.maximumf (F := Ideal) (φ := .f32)) (h := reduces_rows), val_main_cst_1_apply, Ideal.ofBits_def, Cert.Attn.ofBits_negInf]
  unfold Cert.Attn.rowMax
  show (Finset.univ : Finset (Fin 8192)).fold max ⊥ _ = _
  refine Finset.fold_congr fun k _ => ?_
  show val_main_v23 (F := Ideal) x0 x1 x3 x4 x5 x6 (reduces_rows.lift j k) = _
  rw [lift_rows]
  exact score_val x0 x1 x3 x4 x5 x6 _

/-- Taking the maximum with minus infinity once more leaves the row maximum. -/
theorem rowMax_val (j : S8192.Idx) :
    val_main_v26 (F := Ideal) x0 x1 x3 x4 x5 x6 j = Cert.Attn.rowMax (qcol x0 x3 x4) (kcol x1 x5 x6) (j 0) := by
  rw [val_main_v26_apply, val_main_v25_apply, val_main_cst_2_apply, fold_val, Ideal.ofBits_def,
    Cert.Attn.ofBits_negInf, Ideal.maximumf_def]
  exact max_eq_right bot_le

/-- The row maximum broadcast along its row. -/
theorem rowMaxB_val (y : S8192x8192.Idx) :
    val_main_v28 (F := Ideal) x0 x1 x3 x4 x5 x6 y = Cert.Attn.rowMax (qcol x0 x3 x4) (kcol x1 x5 x6) (y 0) := by
  rw [val_main_v28_apply, val_main_v27_apply, rowMax_val]
  rfl

/-! ## The shifted exponentials, their row sums, the attention matrix -/

/-- An entry of the exponentiated shifted scores is the specification's numerator. -/
theorem num_val (y : S8192x8192.Idx) :
    val_main_v30 (F := Ideal) x0 x1 x3 x4 x5 x6 y = Cert.Attn.num (qcol x0 x3 x4) (kcol x1 x5 x6) (y 0) (y 1) := by
  rw [val_main_v30_apply, val_main_v29_apply, score_val, rowMaxB_val, Ideal.hostUnary_exp_def, Ideal.subf_def]
  rfl

/-- The sum of a row of numerators from zero is the specification's denominator. -/
theorem den_val (j : S8192.Idx) :
    val_main_v31 (F := Ideal) x0 x1 x3 x4 x5 x6 j = Cert.Attn.den (qcol x0 x3 x4) (kcol x1 x5 x6) (j 0) := by
  rw [val_main_v31_apply, val_main_cst_3_apply, Ideal.ofBits_def, Ideal.ofBits_zero_f32, zero_add]
  unfold Cert.Attn.den
  refine Finset.sum_congr rfl fun k _ => ?_
  exact num_val x0 x1 x3 x4 x5 x6 _

/-- The denominator broadcast along its row. -/
theorem denB_val (y : S8192x8192.Idx) :
    val_main_v33 (F := Ideal) x0 x1 x3 x4 x5 x6 y = Cert.Attn.den (qcol x0 x3 x4) (kcol x1 x5 x6) (y 0) := by
  rw [val_main_v33_apply, val_main_v32_apply, den_val]
  rfl

/-- An entry of the quotient is the specification's attention entry. -/
theorem attn_val (y : S8192x8192.Idx) :
    val_main_v34 (F := Ideal) x0 x1 x3 x4 x5 x6 y = Cert.Attn.attn (qcol x0 x3 x4) (kcol x1 x5 x6) (y 0) (y 1) := by
  rw [val_main_v34_apply, num_val, denB_val, Ideal.hostDivf_def]
  rfl

/-- The reference's attention result is the specification's attention matrix of the query and key columns. -/
theorem attn_eq :
    val_main_v34 (F := Ideal) x0 x1 x3 x4 x5 x6
      = Cert.Attn.attnArr (fun i => val_main_v5 (F := Ideal) x0 x3 x4 (ix2 i 0))
          (fun j => val_main_v11 (F := Ideal) x1 x5 x6 (ix2 j 0)) := by
  funext y
  exact attn_val x0 x1 x3 x4 x5 x6 y

/-! ## The output column -/

/-- The left operand of the output product is read at row `y 0`, column `k`. -/
theorem lidx35_eq (y : S8192x1.Idx) (k : Fin 8192) : lidx_main_v35 y k = ix2 (n0 := 8192) (n1 := 8192) (y 0) k := by
  funext a; match a with | ⟨0, _⟩ => rfl | ⟨1, _⟩ => rfl

/-- The right operand of the output product, the value column, is read at row `k`, column `0`. -/
theorem ridx35_eq (y : S8192x1.Idx) (k : Fin 8192) : ridx_main_v35 y k = ix2 (n0 := 8192) (n1 := 1) k 0 := by
  funext a; match a with | ⟨0, _⟩ => rfl | ⟨1, _⟩ => exact Fin.ext (by have h : (y 1).val < 1 := (y 1).isLt; show (y 1).val = 0; omega)

end

/-- The reference's output is the specification's output column of the query, key and value columns. -/
theorem out_eq (x0 x1 x2 : (⟨S64x8192, .f32⟩ : BufTy).Contents (Elt Ideal))
    (x3 : (⟨S1x64, .f32⟩ : BufTy).Contents (Elt Ideal)) (x4 : (⟨S1, .f32⟩ : BufTy).Contents (Elt Ideal))
    (x5 : (⟨S1x64, .f32⟩ : BufTy).Contents (Elt Ideal)) (x6 : (⟨S1, .f32⟩ : BufTy).Contents (Elt Ideal))
    (x7 : (⟨S1x64, .f32⟩ : BufTy).Contents (Elt Ideal)) (x8 : (⟨S1, .f32⟩ : BufTy).Contents (Elt Ideal)) :
    val_main_v35 (F := Ideal) x0 x1 x2 x3 x4 x5 x6 x7 x8
      = Cert.Attn.outArr (fun i => val_main_v5 (F := Ideal) x0 x3 x4 (ix2 i 0))
          (fun j => val_main_v11 (F := Ideal) x1 x5 x6 (ix2 j 0))
          (fun j => val_main_v17 (F := Ideal) x2 x7 x8 (ix2 j 0)) := by
  funext y
  rw [val_main_v35_apply]
  unfold Cert.Attn.outArr Cert.Attn.out
  refine Finset.sum_congr rfl fun k _ => ?_
  rw [lidx35_eq, ridx35_eq, attn_val]

end Cert.ReferenceIdeal.RefValue

end
-- ==== Proof.Bridge.lean ====
/-
  The two programs project their inputs to the same three columns.

  Before its region the kernel's host operations compute the query, key and value columns exactly as the reference
  does: a transposed input times a transposed weight row, plus the broadcast bias. The kernel then reshapes the key
  and value columns [8192, 1] to rows [1, 8192]; a reshape keeps the row-major order, so entry `(0, j)` of the row is
  entry `(j, 0)` of the column. Hence the three columns the kernel's region finds are the reference's three projected
  columns of the same arguments.
-/
import proofs.«405289_j79963701117362_3_alg».proof.Proof.KernelArr
import proofs.«405289_j79963701117362_3_alg».proof.Proof.Gen.ReferenceIdeal.Read
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo

section generic
variable {F : FTy → Type} [FloatOps F]
variable (m : (ℓ : Loc nD τ sig) → Buf (Elt F) ℓ)

/-- The array the region finds as its query column is the projected query column of the arguments. -/
theorem V_v5 (c : Dev nD) :
    (V m c main_v5 : S8192x1.Idx → Elt F .f32)
      = Cert.ReferenceIdeal.Read.val_main_v5 (F := F) (m ((c : Thread nD τ).loc main_arg0)) (m ((c : Thread nD τ).loc main_arg3))
          (m ((c : Thread nD τ).loc main_arg4)) := by
  dsimp only [Gen.V, Gen.hostOps0]
  after_results
  rfl

/-- The key row at `(0, j)` is the projected key column at `(j, 0)`. -/
theorem V_v18 (c : Dev nD) (j : Fin 8192) :
    (V m c main_v18 : S1x8192.Idx → Elt F .f32) (ix2 (0 : Fin 1) j)
      = Cert.ReferenceIdeal.Read.val_main_v11 (F := F) (m ((c : Thread nD τ).loc main_arg1)) (m ((c : Thread nD τ).loc main_arg5))
          (m ((c : Thread nD τ).loc main_arg6)) (ix2 j (0 : Fin 1)) := by
  have e : (V m c main_v18 : S1x8192.Idx → Elt F .f32) = shapeCast S1x8192 (Cert.ReferenceIdeal.Read.val_main_v11 (F := F)
      (m ((c : Thread nD τ).loc main_arg1)) (m ((c : Thread nD τ).loc main_arg5)) (m ((c : Thread nD τ).loc main_arg6)))
      Facts₀.shapeCasts_S8192x1_S1x8192 := by
    dsimp only [Gen.V, Gen.hostOps0]
    after_results
    rfl
  rw [e]
  exact shapeCast_apply _ _ _ _ (by
    rw [Shape.rowMajor_val_two, Shape.rowMajor_val_two]
    show j.val * 1 + 0 = 0 * 8192 + j.val
    omega)

/-- The value row at `(0, j)` is the projected value column at `(j, 0)`. -/
theorem V_v19 (c : Dev nD) (j : Fin 8192) :
    (V m c main_v19 : S1x8192.Idx → Elt F .f32) (ix2 (0 : Fin 1) j)
      = Cert.ReferenceIdeal.Read.val_main_v17 (F := F) (m ((c : Thread nD τ).loc main_arg2)) (m ((c : Thread nD τ).loc main_arg7))
          (m ((c : Thread nD τ).loc main_arg8)) (ix2 j (0 : Fin 1)) := by
  have e : (V m c main_v19 : S1x8192.Idx → Elt F .f32) = shapeCast S1x8192 (Cert.ReferenceIdeal.Read.val_main_v17 (F := F)
      (m ((c : Thread nD τ).loc main_arg2)) (m ((c : Thread nD τ).loc main_arg7)) (m ((c : Thread nD τ).loc main_arg8)))
      Facts₀.shapeCasts_S8192x1_S1x8192 := by
    dsimp only [Gen.V, Gen.hostOps0]
    after_results
    rfl
  rw [e]
  exact shapeCast_apply _ _ _ _ (by
    rw [Shape.rowMajor_val_two, Shape.rowMajor_val_two]
    show j.val * 1 + 0 = 0 * 8192 + j.val
    omega)

end generic

variable (m : (ℓ : Loc nD τ sig) → Buf (Elt Ideal) ℓ)

/-- The query column the region finds is the reference's projected query column of the same arguments. -/
theorem qcol_eq (c : Dev nD) : qcol m c = fun i => Cert.ReferenceIdeal.Read.val_main_v5 (F := Ideal)
    (m ((c : Thread nD τ).loc main_arg0)) (m ((c : Thread nD τ).loc main_arg3)) (m ((c : Thread nD τ).loc main_arg4)) (ix2 i (0 : Fin 1)) :=
  funext fun i => congrFun (V_v5 m c) (ix2 i (0 : Fin 1))

/-- The key row the region finds, a reshape of the projected key column, holds that column's entries. -/
theorem krow_eq (c : Dev nD) : krow m c = fun j => Cert.ReferenceIdeal.Read.val_main_v11 (F := Ideal)
    (m ((c : Thread nD τ).loc main_arg1)) (m ((c : Thread nD τ).loc main_arg5)) (m ((c : Thread nD τ).loc main_arg6)) (ix2 j (0 : Fin 1)) :=
  funext fun j => V_v18 m c j

/-- The value row likewise. -/
theorem wrow_eq (c : Dev nD) : wrow m c = fun j => Cert.ReferenceIdeal.Read.val_main_v17 (F := Ideal)
    (m ((c : Thread nD τ).loc main_arg2)) (m ((c : Thread nD τ).loc main_arg7)) (m ((c : Thread nD τ).loc main_arg8)) (ix2 j (0 : Fin 1)) :=
  funext fun j => V_v19 m c j

end Cert.KernelIdeal.KValue

end
-- ==== Proof.lean ====
/-
  Softmax attention over a rank-one score matrix: the kernel against the reference.

  Both programs project their inputs to a query column, a key column and a value column by the same host
  operations. The reference forms the 8192 × 8192 matrix of scores `q i * k j / sqrt 64`, takes the softmax of each
  row (subtract the row's maximum, exponentiate, divide by the row's sum) and applies the matrix to the value column.
  The kernel does the same 256 rows at a time, with the scale written as the word for `1/8` and with the row maximum
  in closed form: the scores of a row are the keys times one number, so their maximum is that number times the
  largest key, or times the smallest key when the number is negative. Over the extended reals these are one
  function of the three columns (the specification); the closed form of the maximum holds at every extended real,
  so the precondition is never opened. The word-level kernel's frame and the idealized kernel's frame are the
  generated ones, the reference's frame is its generated run, and the ideal pass rewrote nothing.
-/
import proofs.«405289_j79963701117362_3_alg».proof.Defs
import proofs.«405289_j79963701117362_3_alg».proof.Proof.Gen.Kernel
import proofs.«405289_j79963701117362_3_alg».proof.Proof.Gen.Kernel.Skeleton
import proofs.«405289_j79963701117362_3_alg».proof.Proof.Gen.Kernel.Launch
import proofs.«405289_j79963701117362_3_alg».proof.Proof.Gen.Kernel.Points
import proofs.«405289_j79963701117362_3_alg».proof.Proof.Gen.Kernel.Frame
import proofs.«405289_j79963701117362_3_alg».proof.Proof.Gen.KernelIdeal
import proofs.«405289_j79963701117362_3_alg».proof.Proof.Gen.KernelIdeal.Skeleton
import proofs.«405289_j79963701117362_3_alg».proof.Proof.Gen.KernelIdeal.Launch
import proofs.«405289_j79963701117362_3_alg».proof.Proof.Gen.KernelIdeal.Points
import proofs.«405289_j79963701117362_3_alg».proof.Proof.Gen.KernelIdeal.Frame
import proofs.«405289_j79963701117362_3_alg».proof.Proof.Gen.ReferenceIdeal
import proofs.«405289_j79963701117362_3_alg».proof.Proof.Gen.Pre_finite_inputs
import proofs.«405289_j79963701117362_3_alg».proof.Proof.Gen.ReferenceIdeal.Run
import proofs.«405289_j79963701117362_3_alg».proof.Proof.Gen.ReferenceIdeal.Read
import proofs.«405289_j79963701117362_3_alg».proof.Proof.ValueP
import proofs.«405289_j79963701117362_3_alg».proof.Proof.KernelArr
import proofs.«405289_j79963701117362_3_alg».proof.Proof.RefAttn
import proofs.«405289_j79963701117362_3_alg».proof.Proof.Bridge
import Idealize.ShloMosaic.Adequacy
import Idealize.ShloMosaic.Init

noncomputable section

namespace Cert.Proof

open Idealize.ShloMosaic Idealize.SL.Sem Idealize.ShloMosaic.ValueIdx
open Cert.KernelIdeal.KValue

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's output column and attention matrix of the three columns the kernel's
    region finds: the kernel block by block, the reference operation by operation, and the columns agree because
    the arguments do. -/
theorem algebraic : Cert.algebraic_KernelIdeal_ReferenceIdeal := by
  intro m ρ m' ρ' _ hagree
  refine ⟨fun c => Cert.Attn.outArr (qcol m c) (krow m c) (wrow m c), fun c => Cert.Attn.attnArr (qcol m c) (krow m c), ?_, ?_⟩
  · exact (θ_run Cert.KernelIdeal.defs _ _).mono
      (fun r h c => ⟨(h c).2.1.trans (final4 m c), (h c).1.trans (final3 m c), (h c).2.2⟩)
      (Cert.KernelIdeal.ValueP.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8⟩ := hagree c
      rw [Cert.ReferenceIdeal.Read.val_main_v35_eq, Cert.ReferenceIdeal.RefValue.out_eq, a0, a1, a2, a3, a4, a5, a6, a7, a8]
      show _ = Cert.Attn.outArr (qcol m c) (krow m c) (wrow m c)
      rw [qcol_eq m c, krow_eq m c, wrow_eq m c]
    · obtain ⟨a0, a1, a2, a3, a4, a5, a6, a7, a8⟩ := hagree c
      rw [Cert.ReferenceIdeal.Read.val_main_v34_eq, Cert.ReferenceIdeal.RefValue.attn_eq, a0, a1, a3, a4, a5, a6]
      show _ = Cert.Attn.attnArr (qcol m c) (krow m c)
      rw [qcol_eq m c, krow_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
